-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4x4 : Shape := ⟨3, ![2097152, 4, 4]⟩
abbrev S2097152x10x3 : Shape := ⟨3, ![2097152, 10, 3]⟩
abbrev S_ : Shape := ⟨0, ![]⟩

class Facts : Prop where
  bcast_S_S2097152x4x4 : S_.BroadcastsInDim S2097152x4x4 (![] : Fin 0 → Fin S2097152x4x4.rank)
  reducesTo_S2097152x4x4_S_d0_1_2 : S2097152x4x4.ReducesTo [0, 1, 2] S_
  h_S_ : 0 < S_.numel
  bcast_S_S2097152x10x3 : S_.BroadcastsInDim S2097152x10x3 (![] : Fin 0 → Fin S2097152x10x3.rank)
  reducesTo_S2097152x10x3_S_d0_1_2 : S2097152x10x3.ReducesTo [0, 1, 2] S_

variable [Facts]

def fn {F : FTy → Type} [FloatOps F] (main_arg0 : FVec F S2097152x4x4 .f32) (main_arg1 : FVec F S2097152x10x3 .f32) : IVec S_ 1 :=
  let main_v0 : FVec F S2097152x4x4 .f32 := Host.absf main_arg0
  let main_cst : FVec F S_ .f32 := constant S_ .f32 0x7F800000#32
  let main_v1 : FVec F S2097152x4x4 .f32 := broadcastInDim S2097152x4x4 ![] bcast_S_S2097152x4x4 main_cst
  let main_v2 : IVec S2097152x4x4 1 := cmpf .olt main_v0 main_v1
  let main_c : IVec S_ 1 := constantI S_ 1 1#1
  let main_v3 : IVec S_ 1 := (fun x v => Host.reduce IntOp.andi x v reducesTo_S2097152x4x4_S_d0_1_2 h_S_) main_v2 main_c
  let main_v4 : FVec F S2097152x10x3 .f32 := Host.absf main_arg1
  let main_cst_0 : FVec F S_ .f32 := constant S_ .f32 0x7F800000#32
  let main_v5 : FVec F S2097152x10x3 .f32 := broadcastInDim S2097152x10x3 ![] bcast_S_S2097152x10x3 main_cst_0
  let main_v6 : IVec S2097152x10x3 1 := cmpf .olt main_v4 main_v5
  let main_c_1 : IVec S_ 1 := constantI S_ 1 1#1
  let main_v7 : IVec S_ 1 := (fun x v => Host.reduce IntOp.andi x v reducesTo_S2097152x10x3_S_d0_1_2 h_S_) main_v6 main_c_1
  let main_v8 : IVec S_ 1 := andi main_v3 main_v7
  main_v8
-- ==== Kernel.lean ====
abbrev S2097152x4x4 : Shape := ⟨3, ![2097152, 4, 4]⟩
abbrev S2097152x10x3 : Shape := ⟨3, ![2097152, 10, 3]⟩
abbrev S2097152x16 : Shape := ⟨2, ![2097152, 16]⟩
abbrev S2097152x30 : Shape := ⟨2, ![2097152, 30]⟩
abbrev S2097152x1 : Shape := ⟨2, ![2097152, 1]⟩
abbrev S4096x16 : Shape := ⟨2, ![4096, 16]⟩
abbrev S4096x30 : Shape := ⟨2, ![4096, 30]⟩
abbrev S4096x1 : Shape := ⟨2, ![4096, 1]⟩

abbrev nBuf : Space → Nat
  | .hbm => 5
  | .vmem => 6
  | .smem => 0
  | _ => 0

abbrev bufTy : (tb : Table) → Fin (tcTables nBuf tb) → BufTy
  | .hbm, ⟨0, _⟩ => ⟨S2097152x4x4, .f32⟩
  | .hbm, ⟨1, _⟩ => ⟨S2097152x10x3, .f32⟩
  | .hbm, ⟨2, _⟩ => ⟨S2097152x16, .f32⟩
  | .hbm, ⟨3, _⟩ => ⟨S2097152x30, .f32⟩
  | .hbm, ⟨4, _⟩ => ⟨S2097152x1, .f32⟩
  | .local _ .vmem, ⟨0, _⟩ => ⟨S4096x16, .f32⟩
  | .local _ .vmem, ⟨1, _⟩ => ⟨S4096x16, .f32⟩
  | .local _ .vmem, ⟨2, _⟩ => ⟨S4096x30, .f32⟩
  | .local _ .vmem, ⟨3, _⟩ => ⟨S4096x30, .f32⟩
  | .local _ .vmem, ⟨4, _⟩ => ⟨S4096x1, .f32⟩
  | .local _ .vmem, ⟨5, _⟩ => ⟨S4096x1, .f32⟩
  | _, _ => ⟨S2097152x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2097152x4x4_S2097152x16 : S2097152x4x4.ShapeCasts S2097152x16
  shapeCasts_S2097152x10x3_S2097152x30 : S2097152x10x3.ShapeCasts S2097152x30
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S4096x30_S4096x30_0_0 : ∀ a, (![0, 0] : Fin 2 → Nat) a + S4096x30.size a ≤ S4096x30.size a
  h_S4096x30 : 0 < S4096x30.numel
  shapeCasts_S4096x30_S4096x30 : S4096x30.ShapeCasts S4096x30
  slices_S4096x16_o0_0_S4096x1 : S4096x16.Slices ![0, 0] S4096x1
  slices_S4096x16_o0_4_S4096x1 : S4096x16.Slices ![0, 4] S4096x1
  slices_S4096x16_o0_8_S4096x1 : S4096x16.Slices ![0, 8] S4096x1
  slices_S4096x16_o0_12_S4096x1 : S4096x16.Slices ![0, 12] S4096x1
  slices_S4096x16_o0_1_S4096x1 : S4096x16.Slices ![0, 1] S4096x1
  slices_S4096x16_o0_5_S4096x1 : S4096x16.Slices ![0, 5] S4096x1
  slices_S4096x16_o0_9_S4096x1 : S4096x16.Slices ![0, 9] S4096x1
  slices_S4096x16_o0_13_S4096x1 : S4096x16.Slices ![0, 13] S4096x1
  slices_S4096x16_o0_2_S4096x1 : S4096x16.Slices ![0, 2] S4096x1
  slices_S4096x16_o0_6_S4096x1 : S4096x16.Slices ![0, 6] S4096x1
  slices_S4096x16_o0_10_S4096x1 : S4096x16.Slices ![0, 10] S4096x1
  slices_S4096x16_o0_14_S4096x1 : S4096x16.Slices ![0, 14] S4096x1
  slices_S4096x16_o0_3_S4096x1 : S4096x16.Slices ![0, 3] S4096x1
  slices_S4096x16_o0_7_S4096x1 : S4096x16.Slices ![0, 7] S4096x1
  slices_S4096x16_o0_11_S4096x1 : S4096x16.Slices ![0, 11] S4096x1
  slices_S4096x16_o0_15_S4096x1 : S4096x16.Slices ![0, 15] S4096x1
  slices_S4096x30_o0_0_S4096x1 : S4096x30.Slices ![0, 0] S4096x1
  slices_S4096x30_o0_3_S4096x1 : S4096x30.Slices ![0, 3] S4096x1
  slices_S4096x30_o0_6_S4096x1 : S4096x30.Slices ![0, 6] S4096x1
  slices_S4096x30_o0_9_S4096x1 : S4096x30.Slices ![0, 9] S4096x1
  slices_S4096x30_o0_1_S4096x1 : S4096x30.Slices ![0, 1] S4096x1
  slices_S4096x30_o0_4_S4096x1 : S4096x30.Slices ![0, 4] S4096x1
  slices_S4096x30_o0_7_S4096x1 : S4096x30.Slices ![0, 7] S4096x1
  slices_S4096x30_o0_10_S4096x1 : S4096x30.Slices ![0, 10] S4096x1
  slices_S4096x30_o0_2_S4096x1 : S4096x30.Slices ![0, 2] S4096x1
  slices_S4096x30_o0_5_S4096x1 : S4096x30.Slices ![0, 5] S4096x1
  slices_S4096x30_o0_8_S4096x1 : S4096x30.Slices ![0, 8] S4096x1
  slices_S4096x30_o0_11_S4096x1 : S4096x30.Slices ![0, 11] S4096x1
  inb_S4096x1_S4096x1_0_0 : ∀ a, (![0, 0] : Fin 2 → Nat) a + S4096x1.size a ≤ S4096x1.size a
  h_S4096x1 : 0 < S4096x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S2097152x16.size a
  hwx0_0 : ∀ i : grid0.Coords, EltTy.bits .f32 = 32 ∨ (Rect.block (s := S2097152x16) S4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x30.size a ≤ S2097152x30.size a
  hwx0_1 : ∀ i : grid0.Coords, EltTy.bits .f32 = 32 ∨ (Rect.block (s := S2097152x30) S4096x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S2097152x1.size a
  hwx0_2 : ∀ i : grid0.Coords, EltTy.bits .f32 = 32 ∨ (Rect.block (s := S2097152x1) S4096x1.size (cc0_transform_2 i) (hinb0_2 i)).WholeWords (EltTy.packing .f32)

variable [Facts₀]

abbrev win0_0 : Pipeline.Window sig grid0 :=
  Pipeline.Window.ofSpec (Memref.whole main_v0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2097152x4x4 : Shape := ⟨3, ![2097152, 4, 4]⟩
abbrev S2097152x10x3 : Shape := ⟨3, ![2097152, 10, 3]⟩
abbrev S2097152x4x1 : Shape := ⟨3, ![2097152, 4, 1]⟩
abbrev S2097152x4 : Shape := ⟨2, ![2097152, 4]⟩
abbrev S2097152x10x1 : Shape := ⟨3, ![2097152, 10, 1]⟩
abbrev S2097152x10 : Shape := ⟨2, ![2097152, 10]⟩
abbrev S2097152x1x4 : Shape := ⟨3, ![2097152, 1, 4]⟩
abbrev S_ : Shape := ⟨0, ![]⟩
abbrev S2097152 : Shape := ⟨1, ![2097152]⟩
abbrev S4x4 : Shape := ⟨2, ![4, 4]⟩
abbrev S2097152x1 : Shape := ⟨2, ![2097152, 1]⟩

abbrev nBuf : Space → Nat
  | .hbm => 139
  | .vmem => 0
  | .smem => 0
  | _ => 0

abbrev hbmTy0_0 (i : Nat) : BufTy := match i % 128 with
  | 0 => ⟨S2097152x4x4, .f32⟩
  | 1 => ⟨S2097152x10x3, .f32⟩
  | 2 => ⟨S2097152x4x1, .f32⟩
  | 3 => ⟨S2097152x4, .f32⟩
  | 4 => ⟨S2097152x4x1, .f32⟩
  | 5 => ⟨S2097152x4, .f32⟩
  | 6 => ⟨S2097152x4x1, .f32⟩
  | 7 => ⟨S2097152x4, .f32⟩
  | 8 => ⟨S2097152x4x1, .f32⟩
  | 9 => ⟨S2097152x4, .f32⟩
  | 10 => ⟨S2097152x10x1, .f32⟩
  | 11 => ⟨S2097152x10, .f32⟩
  | 12 => ⟨S2097152x10x1, .f32⟩
  | 13 => ⟨S2097152x10, .f32⟩
  | 14 => ⟨S2097152x10x1, .f32⟩
  | 15 => ⟨S2097152x10, .f32⟩
  | 16 => ⟨S2097152x10, .f32⟩
  | 17 => ⟨S2097152x10, .f32⟩
  | 18 => ⟨S2097152x10, .f32⟩
  | 19 => ⟨S2097152x10, .f32⟩
  | 20 => ⟨S2097152x4, .f32⟩
  | 21 => ⟨S2097152x4, .f32⟩
  | 22 => ⟨S2097152x4, .f32⟩
  | 23 => ⟨S2097152x4, .f32⟩
  | 24 => ⟨S2097152x4x1, .f32⟩
  | 25 => ⟨S2097152x1x4, .f32⟩
  | 26 => ⟨S2097152x4x4, .f32⟩
  | 27 => ⟨S2097152x4x4, .f32⟩
  | 28 => ⟨S2097152x4x4, .f32⟩
  | 29 => ⟨S2097152x4x1, .f32⟩
  | 30 => ⟨S2097152x1x4, .f32⟩
  | 31 => ⟨S2097152x4x4, .f32⟩
  | 32 => ⟨S2097152x4x4, .f32⟩
  | 33 => ⟨S2097152x4x4, .f32⟩
  | 34 => ⟨S2097152x4x4, .f32⟩
  | 35 => ⟨S_, .f32⟩
  | 36 => ⟨S2097152x4x4, .f32⟩
  | 37 => ⟨S2097152x4x4, .f32⟩
  | 38 => ⟨S2097152x4x1, .f32⟩
  | 39 => ⟨S2097152x1x4, .f32⟩
  | 40 => ⟨S2097152x4x4, .f32⟩
  | 41 => ⟨S2097152x4x4, .f32⟩
  | 42 => ⟨S2097152x4x4, .f32⟩
  | 43 => ⟨S2097152x4x1, .f32⟩
  | 44 => ⟨S2097152x1x4, .f32⟩
  | 45 => ⟨S2097152x4x4, .f32⟩
  | 46 => ⟨S2097152x4x4, .f32⟩
  | 47 => ⟨S2097152x4x4, .f32⟩
  | 48 => ⟨S2097152x4x4, .f32⟩
  | 49 => ⟨S_, .f32⟩
  | 50 => ⟨S2097152x4x4, .f32⟩
  | 51 => ⟨S2097152x4x4, .f32⟩
  | 52 => ⟨S2097152x4x4, .f32⟩
  | 53 => ⟨S_, .f32⟩
  | 54 => ⟨S2097152, .f32⟩
  | 55 => ⟨S2097152x4x1, .f32⟩
  | 56 => ⟨S2097152x1x4, .f32⟩
  | 57 => ⟨S2097152x4x4, .f32⟩
  | 58 => ⟨S2097152x4x4, .f32⟩
  | 59 => ⟨S2097152x4x4, .f32⟩
  | 60 => ⟨S2097152x4x1, .f32⟩
  | 61 => ⟨S2097152x1x4, .f32⟩
  | 62 => ⟨S2097152x4x4, .f32⟩
  | 63 => ⟨S2097152x4x4, .f32⟩
  | 64 => ⟨S2097152x4x4, .f32⟩
  | 65 => ⟨S2097152x4x4, .f32⟩
  | 66 => ⟨S_, .f32⟩
  | 67 => ⟨S2097152x4x4, .f32⟩
  | 68 => ⟨S2097152x4x4, .f32⟩
  | 69 => ⟨S2097152x4x1, .f32⟩
  | 70 => ⟨S2097152x1x4, .f32⟩
  | 71 => ⟨S2097152x4x4, .f32⟩
  | 72 => ⟨S2097152x4x4, .f32⟩
  | 73 => ⟨S2097152x4x4, .f32⟩
  | 74 => ⟨S2097152x4x1, .f32⟩
  | 75 => ⟨S2097152x1x4, .f32⟩
  | 76 => ⟨S2097152x4x4, .f32⟩
  | 77 => ⟨S2097152x4x4, .f32⟩
  | 78 => ⟨S2097152x4x4, .f32⟩
  | 79 => ⟨S2097152x4x4, .f32⟩
  | 80 => ⟨S_, .f32⟩
  | 81 => ⟨S2097152x4x4, .f32⟩
  | 82 => ⟨S2097152x4x4, .f32⟩
  | 83 => ⟨S2097152x4x4, .f32⟩
  | 84 => ⟨S4x4, .i32⟩
  | 85 => ⟨S4x4, .i32⟩
  | 86 => ⟨S_, .i32⟩
  | 87 => ⟨S4x4, .i32⟩
  | 88 => ⟨S4x4, .i32⟩
  | 89 => ⟨S4x4, .i1⟩
  | 90 => ⟨S2097152x4x4, .f32⟩
  | 91 => ⟨S2097152x4x4, .i1⟩
  | 92 => ⟨S2097152x4x4, .f32⟩
  | 93 => ⟨S_, .f32⟩
  | 94 => ⟨S2097152, .f32⟩
  | 95 => ⟨S2097152x4x1, .f32⟩
  | 96 => ⟨S2097152x1x4, .f32⟩
  | 97 => ⟨S2097152x4x4, .f32⟩
  | 98 => ⟨S2097152x4x4, .f32⟩
  | 99 => ⟨S2097152x4x4, .f32⟩
  | 100 => ⟨S2097152x4x1, .f32⟩
  | 101 => ⟨S2097152x1x4, .f32⟩
  | 102 => ⟨S2097152x4x4, .f32⟩
  | 103 => ⟨S2097152x4x4, .f32⟩
  | 104 => ⟨S2097152x4x4, .f32⟩
  | 105 => ⟨S2097152x4x4, .f32⟩
  | 106 => ⟨S_, .f32⟩
  | 107 => ⟨S2097152x4x4, .f32⟩
  | 108 => ⟨S2097152x4x4, .f32⟩
  | 109 => ⟨S2097152x4x1, .f32⟩
  | 110 => ⟨S2097152x1x4, .f32⟩
  | 111 => ⟨S2097152x4x4, .f32⟩
  | 112 => ⟨S2097152x4x4, .f32⟩
  | 113 => ⟨S2097152x4x4, .f32⟩
  | 114 => ⟨S2097152x4x1, .f32⟩
  | 115 => ⟨S2097152x1x4, .f32⟩
  | 116 => ⟨S2097152x4x4, .f32⟩
  | 117 => ⟨S2097152x4x4, .f32⟩
  | 118 => ⟨S2097152x4x4, .f32⟩
  | 119 => ⟨S2097152x4x4, .f32⟩
  | 120 => ⟨S_, .f32⟩
  | 121 => ⟨S2097152x4x4, .f32⟩
  | 122 => ⟨S2097152x4x4, .f32⟩
  | 123 => ⟨S2097152x4x4, .f32⟩
  | 124 => ⟨S4x4, .i32⟩
  | 125 => ⟨S4x4, .i32⟩
  | 126 => ⟨S_, .i32⟩
  | 127 => ⟨S4x4, .i32⟩
  | _ => ⟨S2097152x4x4, .f32⟩

abbrev hbmTy0_1 (i : Nat) : BufTy := match i % 128 with
  | 0 => ⟨S4x4, .i32⟩
  | 1 => ⟨S4x4, .i1⟩
  | 2 => ⟨S2097152x4x4, .f32⟩
  | 3 => ⟨S2097152x4x4, .i1⟩
  | 4 => ⟨S2097152x4x4, .f32⟩
  | 5 => ⟨S_, .f32⟩
  | 6 => ⟨S2097152, .f32⟩
  | 7 => ⟨S2097152, .f32⟩
  | 8 => ⟨S2097152, .f32⟩
  | 9 => ⟨S2097152, .f32⟩
  | 10 => ⟨S2097152x1, .f32⟩
  | _ => ⟨S2097152x4x4, .f32⟩

abbrev hbmTy (i : Nat) : BufTy := match i / 128 with
  | 0 => hbmTy0_0 i
  | 1 => hbmTy0_1 i
  | _ => ⟨S2097152x4x4, .f32⟩

abbrev bufTy : (tb : Table) → Fin (tcTables nBuf tb) → BufTy
  | .hbm, ⟨i, _⟩ => hbmTy i
  | _, _ => ⟨S2097152x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_cst : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_cst_0 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_cst_1 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_cst_2 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_cst_3 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_c : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_call0_v0 : Ref sig .tc := ⟨.hbm, 91, rfl⟩
abbrev main_v83 : Ref sig .tc := ⟨.hbm, 92, rfl⟩
abbrev main_cst_4 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_cst_5 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_cst_6 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_c_7 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_call1_v0 : Ref sig .tc := ⟨.hbm, 131, rfl⟩
abbrev main_v118 : Ref sig .tc := ⟨.hbm, 132, rfl⟩
abbrev main_cst_8 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩

abbrev nD : Nat := 1
abbrev τ : Topo := Topo.v7x

variable {F : FTy → Type} [FloatOps F]

class Facts₀ : Prop where
  slices_S2097152x4x4_S2097152x4x1_0_0_0 : S2097152x4x4.Slices ![0, 0, 0] S2097152x4x1
  shapeCasts_S2097152x4x1_S2097152x4 : S2097152x4x1.ShapeCasts S2097152x4
  slices_S2097152x4x4_S2097152x4x1_0_0_1 : S2097152x4x4.Slices ![0, 0, 1] S2097152x4x1
  slices_S2097152x4x4_S2097152x4x1_0_0_2 : S2097152x4x4.Slices ![0, 0, 2] S2097152x4x1
  slices_S2097152x4x4_S2097152x4x1_0_0_3 : S2097152x4x4.Slices ![0, 0, 3] S2097152x4x1
  slices_S2097152x10x3_S2097152x10x1_0_0_0 : S2097152x10x3.Slices ![0, 0, 0] S2097152x10x1
  shapeCasts_S2097152x10x1_S2097152x10 : S2097152x10x1.ShapeCasts S2097152x10
  slices_S2097152x10x3_S2097152x10x1_0_0_1 : S2097152x10x3.Slices ![0, 0, 1] S2097152x10x1
  slices_S2097152x10x3_S2097152x10x1_0_0_2 : S2097152x10x3.Slices ![0, 0, 2] S2097152x10x1
  slices_S2097152x10_S2097152x4_0_0 : S2097152x10.Slices ![0, 0] S2097152x4
  bcast_S2097152x4_S2097152x4x1_0_1 : S2097152x4.BroadcastsInDim S2097152x4x1 (![0, 1] : Fin 2 → Fin S2097152x4x1.rank)
  bcast_S2097152x4_S2097152x1x4_0_2 : S2097152x4.BroadcastsInDim S2097152x1x4 (![0, 2] : Fin 2 → Fin S2097152x1x4.rank)
  bcast_S2097152x4x1_S2097152x4x4_0_1_2 : S2097152x4x1.BroadcastsInDim S2097152x4x4 (![0, 1, 2] : Fin 3 → Fin S2097152x4x4.rank)
  bcast_S2097152x1x4_S2097152x4x4_0_1_2 : S2097152x1x4.BroadcastsInDim S2097152x4x4 (![0, 1, 2] : Fin 3 → Fin S2097152x4x4.rank)
  bcast_S_S2097152x4x4 : S_.BroadcastsInDim S2097152x4x4 (![] : Fin 0 → Fin S2097152x4x4.rank)
  reducesTo_S2097152x4x4_S2097152_d1_2 : S2097152x4x4.ReducesTo [1, 2] S2097152
  h_S_ : 0 < S_.numel
  bcast_S_S4x4 : S_.BroadcastsInDim S4x4 (![] : Fin 0 → Fin S4x4.rank)
  bcast_S4x4_S2097152x4x4_1_2 : S4x4.BroadcastsInDim S2097152x4x4 (![1, 2] : Fin 2 → Fin S2097152x4x4.rank)
  bcast_S2097152_S2097152x1_0 : S2097152.BroadcastsInDim S2097152x1 (![0] : Fin 1 → Fin S2097152x1.rank)

variable [Facts₀]

class Facts : Prop extends Facts₀ where

variable [Facts]
-- ==== Proof.OverlapLoss.lean ====
/-
  THE LOSS OF ONE ROW, as a function of that row's numbers.

  A row holds four boxes `t k = (xmin, ymin, xmax, ymax)` and (of ten) the first four predicted triples
  `p k = (u, y, v)`, which stand for the box with `xmin = min u v`, `xmax = max u v`, `ymin = y` and
  `ymax = y + (xmax - xmin)` (a square). Two intervals `[amin, amax]`, `[bmin, bmax]` overlap in a length
  `max 0 (min amax bmax - max amin bmin)`, two boxes in the product of their overlaps on the two axes. The row's loss is
  `(β₁ - β₂)² - I`: `I` the sum over all sixteen ordered pairs (a box, a predicted box) of their overlap areas, and
  `β` of a family of four boxes the sum over its sixteen ordered pairs of the overlap area, a box paired with itself
  counted SQUARED. Every sum starts from zero, as both programs' do. All of it on the extended reals, where the sums'
  order and grouping are immaterial (addition is commutative and associative there); no other law is used.

  `lossArray` is that function of row `b` of the two argument arrays, at `[b, 0]`.
-/
import Idealize.ShloMosaic.PureOps.Ideal
import Idealize.ShloMosaic.Lib.ValueIdx

noncomputable section

open scoped BigOperators

namespace Cert.OverlapLoss

open Idealize.ShloMosaic Idealize.ShloMosaic.ValueIdx

/-- The length in which `[amin, amax]` and `[bmin, bmax]` overlap, zero when they do not. -/
def overlap (amin amax bmin bmax : EReal) : EReal := max 0 (min amax bmax - max amin bmin)

/-- The overlap area of box `k` of one family with box `l` of another. -/
def pairArea (x1min x1max y1min y1max x2min x2max y2min y2max : Fin 4 → EReal) (k l : Fin 4) : EReal :=
  overlap (x1min k) (x1max k) (x2min l) (x2max l) * overlap (y1min k) (y1max k) (y2min l) (y2max l)

/-- `I`: the overlap areas of all sixteen pairs, summed from zero. -/
def crossArea (x1min x1max y1min y1max x2min x2max y2min y2max : Fin 4 → EReal) : EReal :=
  0 + ∑ k : Fin 4, ∑ l : Fin 4, pairArea x1min x1max y1min y1max x2min x2max y2min y2max k l

/-- `β`: a family against itself, a box with itself squared, summed from zero. -/
def selfArea (xmin xmax ymin ymax : Fin 4 → EReal) : EReal :=
  0 + ∑ k : Fin 4, ∑ l : Fin 4,
    if k = l then pairArea xmin xmax ymin ymax xmin xmax ymin ymax k l * pairArea xmin xmax ymin ymax xmin xmax ymin ymax k l
    else pairArea xmin xmax ymin ymax xmin xmax ymin ymax k l

/-- The row's loss from its four boxes `t k a` (`a`: xmin, ymin, xmax, ymax) and four predicted triples `p k c`. -/
def rowLoss (t : Fin 4 → Fin 4 → EReal) (p : Fin 4 → Fin 3 → EReal) : EReal :=
  (selfArea (fun k => t k 0) (fun k => t k 2) (fun k => t k 1) (fun k => t k 3)
      - selfArea (fun k => min (p k 0) (p k 2)) (fun k => max (p k 0) (p k 2)) (fun k => p k 1)
          (fun k => p k 1 + (max (p k 0) (p k 2) - min (p k 0) (p k 2))))
    * (selfArea (fun k => t k 0) (fun k => t k 2) (fun k => t k 1) (fun k => t k 3)
      - selfArea (fun k => min (p k 0) (p k 2)) (fun k => max (p k 0) (p k 2)) (fun k => p k 1)
          (fun k => p k 1 + (max (p k 0) (p k 2) - min (p k 0) (p k 2))))
    - crossArea (fun k => t k 0) (fun k => t k 2) (fun k => t k 1) (fun k => t k 3)
        (fun k => min (p k 0) (p k 2)) (fun k => max (p k 0) (p k 2)) (fun k => p k 1)
        (fun k => p k 1 + (max (p k 0) (p k 2) - min (p k 0) (p k 2)))

/-- The first four of the ten predicted boxes. -/
abbrev firstFour (k : Fin 4) : Fin 10 := Fin.castLE (by decide) k

/-- THE RESULT ARRAY: at `[b, 0]` the loss of row `b` of the boxes `T : [B, 4, 4]` and the predictions `P : [B, 10, 3]`. -/
def lossArray (T : (⟨3, ![2097152, 4, 4]⟩ : Shape).Idx → EReal) (P : (⟨3, ![2097152, 10, 3]⟩ : Shape).Idx → EReal) :
    (⟨2, ![2097152, 1]⟩ : Shape).Idx → EReal :=
  fun i => rowLoss (fun k a => T (ix3 (i 0 : Fin 2097152) k a)) (fun k c => P (ix3 (i 0 : Fin 2097152) (firstFour k) c))

/-! ## The sums written out

A program that unrolls the pairs adds sixteen terms one after the other; these are the two sums in that form. -/

/-- `I`, its sixteen terms in order. -/
theorem crossArea_unrolled (x1min x1max y1min y1max x2min x2max y2min y2max : Fin 4 → EReal) :
    crossArea x1min x1max y1min y1max x2min x2max y2min y2max =
      0 + ((pairArea x1min x1max y1min y1max x2min x2max y2min y2max 0 0 + pairArea x1min x1max y1min y1max x2min x2max y2min y2max 0 1
            + pairArea x1min x1max y1min y1max x2min x2max y2min y2max 0 2 + pairArea x1min x1max y1min y1max x2min x2max y2min y2max 0 3)
        + (pairArea x1min x1max y1min y1max x2min x2max y2min y2max 1 0 + pairArea x1min x1max y1min y1max x2min x2max y2min y2max 1 1
            + pairArea x1min x1max y1min y1max x2min x2max y2min y2max 1 2 + pairArea x1min x1max y1min y1max x2min x2max y2min y2max 1 3)
        + (pairArea x1min x1max y1min y1max x2min x2max y2min y2max 2 0 + pairArea x1min x1max y1min y1max x2min x2max y2min y2max 2 1
            + pairArea x1min x1max y1min y1max x2min x2max y2min y2max 2 2 + pairArea x1min x1max y1min y1max x2min x2max y2min y2max 2 3)
        + (pairArea x1min x1max y1min y1max x2min x2max y2min y2max 3 0 + pairArea x1min x1max y1min y1max x2min x2max y2min y2max 3 1
            + pairArea x1min x1max y1min y1max x2min x2max y2min y2max 3 2 + pairArea x1min x1max y1min y1max x2min x2max y2min y2max 3 3)) := by
  unfold crossArea
  simp only [Fin.sum_univ_four]

/-- `β`, its sixteen terms in order, the four self-pairs squared. -/
theorem selfArea_unrolled (xmin xmax ymin ymax : Fin 4 → EReal) :
    selfArea xmin xmax ymin ymax =
      0 + ((pairArea xmin xmax ymin ymax xmin xmax ymin ymax 0 0 * pairArea xmin xmax ymin ymax xmin xmax ymin ymax 0 0
            + pairArea xmin xmax ymin ymax xmin xmax ymin ymax 0 1
            + pairArea xmin xmax ymin ymax xmin xmax ymin ymax 0 2 + pairArea xmin xmax ymin ymax xmin xmax ymin ymax 0 3)
        + (pairArea xmin xmax ymin ymax xmin xmax ymin ymax 1 0
            + pairArea xmin xmax ymin ymax xmin xmax ymin ymax 1 1 * pairArea xmin xmax ymin ymax xmin xmax ymin ymax 1 1
            + pairArea xmin xmax ymin ymax xmin xmax ymin ymax 1 2 + pairArea xmin xmax ymin ymax xmin xmax ymin ymax 1 3)
        + (pairArea xmin xmax ymin ymax xmin xmax ymin ymax 2 0 + pairArea xmin xmax ymin ymax xmin xmax ymin ymax 2 1
            + pairArea xmin xmax ymin ymax xmin xmax ymin ymax 2 2 * pairArea xmin xmax ymin ymax xmin xmax ymin ymax 2 2
            + pairArea xmin xmax ymin ymax xmin xmax ymin ymax 2 3)
        + (pairArea xmin xmax ymin ymax xmin xmax ymin ymax 3 0 + pairArea xmin xmax ymin ymax xmin xmax ymin ymax 3 1
            + pairArea xmin xmax ymin ymax xmin xmax ymin ymax 3 2
            + pairArea xmin xmax ymin ymax xmin xmax ymin ymax 3 3 * pairArea xmin xmax ymin ymax xmin xmax ymin ymax 3 3)) := by
  unfold selfArea
  simp only [Fin.sum_univ_four]
  rfl

end Cert.OverlapLoss

end
-- ==== Proof.KernelRow.lean ====
/-
  THE KERNEL'S BLOCK, ROW BY ROW.

  The body loads a block of 4096 rows of the boxes (16 numbers a row: box `k`'s coordinate `a` in column `4k + a`) and
  of the predictions (30 numbers a row: triple `k`'s entry `c` in column `3k + c`), takes the sixteen and the twelve
  columns it needs as [4096, 1] slices, and from there on every operation is pointwise on such columns: maxima, minima,
  differences, products, and forty-eight terms added one after the other to three sums that start from zero. So row
  `r` of what it stores depends on row `r` of the two blocks only, and is the row's loss (OverlapLoss.lean) with the
  three sums written out term by term; regrouping those sums (associativity of addition on the extended reals) is the
  one law used.
-/
import proofs.«102184_j21337397527223_1_alg».proof.Proof.Gen.KernelIdeal.Frame
import proofs.«102184_j21337397527223_1_alg».proof.Proof.OverlapLoss
import Idealize.ShloMosaic.Lib.Pipeline.Value
import Idealize.ShloMosaic.Lib.ValueIdx
import Idealize.ShloMosaic.PureOps.Ideal.Laws

noncomputable section

namespace Cert.KernelRow

open Cert.KernelIdeal Cert.KernelIdeal.Gen Cert.OverlapLoss
open Idealize.ShloMosaic Idealize.ShloMosaic.ValueIdx

/-- The whole-block rectangle's offsets are zero on both axes. -/
theorem hz : (![0, 0] : Fin 2 → Nat) = fun _ => 0 := funext fun a => by fin_cases a <;> rfl

/-- A column slice fits: column `c` is one of the block's `n`. -/
theorem column_lt {n c : Nat} (h : Shape.Slices ⟨2, ![4096, n]⟩ ![0, c] ⟨2, ![4096, 1]⟩) : c < n := by
  have h1 := h.2 1
  exact h1

/-- COLUMN `c` of a block, taken as a [4096, 1] slice, read at row `r`: the block at `[r, c]`. -/
theorem column_apply {α : Type} {n c : Nat} (v : (⟨2, ![4096, n]⟩ : Shape).Idx → α)
    (h : Shape.Slices ⟨2, ![4096, n]⟩ ![0, c] ⟨2, ![4096, 1]⟩) (r : Fin 4096) (z : Fin 1) :
    extractStridedSlice ⟨2, ![4096, 1]⟩ ![0, c] v h (ix2 r z) = v (ix2 r ⟨c, column_lt h⟩) :=
  extractStridedSlice_apply ![0, c] v h (ix2 r z) (ix2 r ⟨c, column_lt h⟩) (fun a => match a with
    | ⟨0, _⟩ => by show r.val = 0 + r.val; omega
    | ⟨1, _⟩ => by show c = c + z.val; omega)

/-- Box `k`'s coordinate `a` sits in column `4k + a` of the flattened boxes. -/
abbrev boxCol (k a : Fin 4) : Fin 16 := ⟨4 * k.val + a.val, by omega⟩
/-- Predicted triple `k`'s entry `c` sits in column `3k + c` of the flattened predictions. -/
abbrev predCol (k : Fin 4) (c : Fin 3) : Fin 30 := ⟨3 * k.val + c.val, by omega⟩

set_option maxHeartbeats 4000000 in
set_option maxRecDepth 65536 in
/-- ROW `r` OF WHAT THE BODY STORES is the loss of row `r` of its two blocks. -/
theorem out_row (x0 : Vec Ideal S4096x16 .f32) (x1 : Vec Ideal S4096x30 .f32) (r : Fin 4096) (z : Fin 1) :
    out0_2 (F := Ideal) x0 x1 (ix2 r z)
      = rowLoss (fun k a => x0 (ix2 r (boxCol k a))) (fun k c => x1 (ix2 r (predCol k c))) := by
  unfold out0_2
  rw [View.canon_unit_zero hz]
  simp only [View.ld_unit_zero (S := S4096x16) hz, View.ld_unit_zero (S := S4096x30) hz]
  simp only [
    k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70,
    k0_pay71, k0_pay72, k0_pay73, k0_pay74, k0_pay75]
  simp only [subf_apply, mulf_apply, addf_apply, maximumf_apply, minimumf_apply, broadcast_apply,
    shapeCast_self, column_apply, Ideal.ofBits_def, Ideal.ofBits_zero_f32]
  simp only [rowLoss, selfArea_unrolled, crossArea_unrolled, pairArea, overlap]
  simp only [add_assoc, zero_add]
  rfl

end Cert.KernelRow

end
-- ==== Proof.KernelArray.lean ====
/-
  FROM BLOCKS TO THE ARRAY: the kernel's result array is the loss array.

  Before the region the host flattens the boxes to [B, 16] and the predictions to [B, 30] (row-major, so box `k`'s
  coordinate `a` of row `R` lands at `[R, 4k + a]` and triple `k`'s entry `c` at `[R, 3k + c]`). Grid point `t` of
  512 reads rows `4096 t … 4096 t + 4095` of both and writes those rows of the [B, 1] result; row `r` of what it
  writes is the loss of row `r` of its blocks (KernelRow.lean), that is of row `4096 t + r` of the arguments. The 512
  blocks tile the result (row `R` is in block `R / 4096`), so after the run the result array is the loss array.
-/
import proofs.«102184_j21337397527223_1_alg».proof.Proof.Gen.KernelIdeal.Value
import proofs.«102184_j21337397527223_1_alg».proof.Proof.KernelRow
import Idealize.ShloMosaic.Lib.Pipeline.Value
import Idealize.ShloMosaic.Lib.ValueIdx
import Idealize.ShloMosaic.Lib.StableHlo.Run

noncomputable section

namespace Cert.KernelArray

open Cert.KernelIdeal Cert.KernelIdeal.Gen Cert.OverlapLoss Cert.KernelRow
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The flattened arguments -/

/-- The region finds the boxes flattened to [B, 16]. -/
theorem flatBoxes (c : Dev nD) :
    (V m c main_v0 : S2097152x16.Idx → EReal)
      = shapeCast S2097152x16 (m ((c : Thread nD τ).loc main_arg0)) shapeCasts_S2097152x4x4_S2097152x16 := by
  dsimp only [Gen.V, Gen.hostOps0]; after_results; rfl

/-- The region finds the predictions flattened to [B, 30]. -/
theorem flatPreds (c : Dev nD) :
    (V m c main_v1 : S2097152x30.Idx → EReal)
      = shapeCast S2097152x30 (m ((c : Thread nD τ).loc main_arg1)) shapeCasts_S2097152x10x3_S2097152x30 := by
  dsimp only [Gen.V, Gen.hostOps0]; after_results; rfl

/-- Column `j` of row `R` of the flattened boxes is coordinate `a` of box `k` when `j = 4k + a`. -/
theorem flatBoxes_apply (T : S2097152x4x4.Idx → EReal) (h : S2097152x4x4.ShapeCasts S2097152x16)
    (i : S2097152x16.Idx) (R : Fin 2097152) (k a : Fin 4) (hR : (i 0).val = R.val) (hj : (i 1).val = 4 * k.val + a.val) :
    shapeCast S2097152x16 T h i = T (ix3 R k a) :=
  shapeCast_apply T h i (ix3 R k a) (by
    rw [Shape.rowMajor_val_three, Shape.rowMajor_val_two]
    show (R.val * 4 + k.val) * 4 + a.val = (i 0).val * 16 + (i 1).val
    omega)

/-- Column `j` of row `R` of the flattened predictions is entry `c` of triple `k` when `j = 3k + c`. -/
theorem flatPreds_apply (P : S2097152x10x3.Idx → EReal) (h : S2097152x10x3.ShapeCasts S2097152x30)
    (i : S2097152x30.Idx) (R : Fin 2097152) (k : Fin 4) (c : Fin 3) (hR : (i 0).val = R.val) (hj : (i 1).val = 3 * k.val + c.val) :
    shapeCast S2097152x30 P h i = P (ix3 R (firstFour k) c) :=
  shapeCast_apply P h i (ix3 R (firstFour k) c) (by
    rw [Shape.rowMajor_val_three, Shape.rowMajor_val_two]
    show (R.val * 10 + k.val) * 3 + c.val = (i 0).val * 30 + (i 1).val
    omega)

/-! ## One block -/

/-- The three windows' index maps over the grid: block `t` on the row axis, block 0 on the column axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A block's row of the result from the same row of two blocks of the flattened arguments: over blocks `x0`, `x1`
    whose row `y 0` holds row `R` of the boxes `T` and of the predictions `P`, what the body stores at `y` is the loss
    array of `T`, `P` at any index `i` of row `R`. -/
theorem block_row (x0 : Vec Ideal S4096x16 .f32) (x1 : Vec Ideal S4096x30 .f32)
    (T : S2097152x4x4.Idx → EReal) (P : S2097152x10x3.Idx → EReal) (y : S4096x1.Idx) (R : Fin 2097152) (i : S2097152x1.Idx)
    (hi : (i 0).val = R.val)
    (h0 : ∀ k a : Fin 4, x0 (ix2 (y 0) (boxCol k a)) = T (ix3 R k a))
    (h1 : ∀ (k : Fin 4) (c : Fin 3), x1 (ix2 (y 0) (predCol k c)) = P (ix3 R (firstFour k) c)) :
    out0_2 (F := Ideal) x0 x1 y = lossArray T P i := by
  obtain ⟨r, z, rfl⟩ : ∃ (r : Fin 4096) (z : Fin 1), y = ix2 r z := ⟨y 0, y 1, eq_ix2 y⟩
  rw [out_row]
  unfold lossArray
  have hR : (i 0 : Fin 2097152) = R := Fin.ext hi
  rw [hR]
  exact congrArg₂ rowLoss (funext fun k => funext fun a => h0 k a) (funext fun k => funext fun c => h1 k c)

/-- WHAT POINT `t` WRITES BACK is block `t` of the loss array of the arguments. -/
theorem flushed_eq (c : Dev nD) (t : Fin cfg0.N) :
    (dats m 0 c).flushed 2 t
      = ((cfg0.win 2).blk t).view.read (Elt Ideal)
          (lossArray (m ((c : Thread nD τ).loc main_arg0)) (m ((c : Thread nD τ).loc main_arg1))) := by
  rw [Cert.KernelIdeal.Value.flushed2]
  obtain ⟨e00, e01, e10, e11, e20, e21⟩ := idx_facts t
  have ht : t.val < 512 := by
    have h := t.isLt
    have hN : cfg0.N = 512 := N_0
    omega
  funext y
  have hy : (y 0).val < 4096 := (y 0).isLt
  refine block_row (iblk m c 0 t) (iblk m c 1 t) (m ((c : Thread nD τ).loc main_arg0)) (m ((c : Thread nD τ).loc main_arg1)) y
    ⟨t.val * 4096 + (y 0).val, by omega⟩ (((cfg0.win 2).blk t).view.emb y) ?_ ?_ ?_
  · show win0_2.index t (0 : Fin 2) * 4096 + 1 * (y 0).val = t.val * 4096 + (y 0).val
    omega
  · intro k a
    show V m c main_v0 (((cfg0.win 0).blk t).view.emb (ix2 (y 0) (boxCol k a))) = _
    rw [flatBoxes]
    refine flatBoxes_apply _ _ _ _ k a ?_ ?_
    · show win0_0.index t (0 : Fin 2) * 4096 + 1 * (y 0).val = t.val * 4096 + (y 0).val
      omega
    · show win0_0.index t (1 : Fin 2) * 16 + 1 * (4 * k.val + a.val) = 4 * k.val + a.val
      omega
  · intro k c'
    show V m c main_v1 (((cfg0.win 1).blk t).view.emb (ix2 (y 0) (predCol k c'))) = _
    rw [flatPreds]
    refine flatPreds_apply _ _ _ _ k c' ?_ ?_
    · show win0_1.index t (0 : Fin 2) * 4096 + 1 * (y 0).val = t.val * 4096 + (y 0).val
      omega
    · show win0_1.index t (1 : Fin 2) * 30 + 1 * (3 * k.val + c'.val) = 3 * k.val + c'.val
      omega

/-! ## The cover -/

/-- An index of the result is in point `t`'s block iff each coordinate is in the block's range on its axis. -/
theorem mem_blk (t : Fin cfg0.N) (i : S2097152x1.Idx) :
    i ∈ ((cfg0.win 2).blk t).view.set ↔ ∀ a : Fin 2, win0_2.index t a * S4096x1.size a ≤ (i a).val ∧ (i a).val < win0_2.index t a * S4096x1.size a + S4096x1.size a := by
  show i ∈ ((View.whole main_v2).slice (win0_2.rect t)).set ↔ _
  rw [View.set_slice_whole, Rect.mem_set_unit]
  exact Iff.rfl

/-- Row `R` of the result is in the block of point `R / 4096`, which writes back. -/
theorem cover (i : S2097152x1.Idx) :
    ∃ t : Fin cfg0.N, (cfg0.win 2).flush t = true ∧ i ∈ ((cfg0.win 2).blk t).view.set := by
  have hi0 : (i 0).val < 2097152 := (i 0).isLt
  have hi1 : (i 1).val < 1 := (i 1).isLt
  have hN : cfg0.N = 512 := N_0
  refine ⟨⟨(i 0).val / 4096, by rw [hN]; omega⟩, flush0_2 _, ?_⟩
  rw [mem_blk]
  obtain ⟨-, -, -, -, e20, e21⟩ := idx_facts ⟨(i 0).val / 4096, by rw [hN]; omega⟩
  intro a
  match a with
  | ⟨0, _⟩ =>
    show win0_2.index _ (0 : Fin 2) * 4096 ≤ (i 0).val ∧ (i 0).val < win0_2.index _ (0 : Fin 2) * 4096 + 4096
    rw [e20]; show (i 0).val / 4096 * 4096 ≤ (i 0).val ∧ (i 0).val < (i 0).val / 4096 * 4096 + 4096
    omega
  | ⟨1, _⟩ =>
    show win0_2.index _ (1 : Fin 2) * 1 ≤ (i 1).val ∧ (i 1).val < win0_2.index _ (1 : Fin 2) * 1 + 1
    rw [e21]; omega

/-! ## The array, and the run -/

/-- THE RESULT ARRAY after the run is the loss array of the arguments. -/
theorem final (c : Dev nD) :
    (dats m 0 c).arrAt 2 cfg0.N = lossArray (m ((c : Thread nD τ).loc main_arg0)) (m ((c : Thread nD τ).loc main_arg1)) :=
  (dats m 0 c).arrAt_eq_of_cover 2 _ (fun t _ => flushed_eq m c t) cover

/-- The kernel's run: every weakly fair execution ends with the result at the loss array of the arguments and the
    arguments unchanged. -/
theorem run : θ_run defs (onTc (τ := τ) (main (F := Ideal))) ⟨m, fun _ => 0, ρ⟩ fun r => ∀ c : Dev nD,
      r.2.mem ((c : Thread nD τ).loc main_v2) = lossArray (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelArray

end
-- ==== Proof.LibHostSum2.lean ====
/-
  The host's float sum over the TWO TRAILING AXES of a rank-3 array, read at an index.

  A reference's `jnp.sum(x, axis=(1, 2))` of an array `x : [n, a, b]` is one reduce over both axes into `[n]`. At the
  ideal values its entry at `j` is the initial value plus the sum of the entries of `x` whose leading coordinate is
  `j`; those entries are exactly `x[j, k, l]` for `k < a`, `l < b`, each met once, so the sum is the double sum over
  `k` and `l` (extended-real addition is commutative and associative, so no order is left in it).
-/
import Idealize.ShloMosaic.PureOps.Ideal.Laws
import Idealize.ShloMosaic.PureOps.Reduce
import Idealize.ShloMosaic.Lib.ValueIdx
import Idealize.ShloMosaic.Lib.IdealHost

noncomputable section

open scoped BigOperators

namespace Idealize.ShloMosaic.HostSum2

open Idealize.ShloMosaic Idealize.ShloMosaic.ValueIdx

variable {n a b : Nat}

/-- Dropping the two trailing axes of an index `[j, k, l]` leaves `[j]`: the one kept axis is the leading one. -/
theorem drop_val (h : Shape.ReducesTo ⟨3, ![n, a, b]⟩ [1, 2] ⟨1, ![n]⟩) (i : (⟨3, ![n, a, b]⟩ : Shape).Idx) :
    (h.drop i 0 : Nat) = (i 0).val := rfl

/-- The entries that reduce to `j`, summed, are the double sum over the two trailing coordinates. -/
theorem sum_filter_drop (h : Shape.ReducesTo ⟨3, ![n, a, b]⟩ [1, 2] ⟨1, ![n]⟩)
    (x : (⟨3, ![n, a, b]⟩ : Shape).Idx → EReal) (j : Fin n) :
    ∑ i ∈ Finset.univ.filter (fun i => h.drop i = ix1 j), x i = ∑ k : Fin a, ∑ l : Fin b, x (ix3 j k l) := by
  rw [← Finset.sum_product' (Finset.univ : Finset (Fin a)) (Finset.univ : Finset (Fin b)) (fun k l => x (ix3 j k l))]
  refine Finset.sum_nbij' (fun i => (i 1, i 2)) (fun p => ix3 j p.1 p.2) ?_ ?_ ?_ ?_ ?_
  · intro i _; exact Finset.mem_product.2 ⟨Finset.mem_univ _, Finset.mem_univ _⟩
  · intro p _
    refine Finset.mem_filter.2 ⟨Finset.mem_univ _, ?_⟩
    funext d
    match d with
    | ⟨0, _⟩ => exact Fin.ext (drop_val h (ix3 j p.1 p.2))
  · intro i hi
    have hj : h.drop i = ix1 j := (Finset.mem_filter.1 hi).2
    have h0 : (i 0).val = j.val := by
      rw [← drop_val h i, hj]; rfl
    funext d
    match d with
    | ⟨0, _⟩ => exact Fin.ext h0.symm
    | ⟨1, _⟩ => rfl
    | ⟨2, _⟩ => rfl
  · intro p _; rfl
  · intro i hi
    have hj : h.drop i = ix1 j := (Finset.mem_filter.1 hi).2
    have h0 : (i 0).val = j.val := by
      rw [← drop_val h i, hj]; rfl
    refine congrArg x (funext fun d => ?_)
    match d with
    | ⟨0, _⟩ => exact Fin.ext h0
    | ⟨1, _⟩ => rfl
    | ⟨2, _⟩ => rfl

/-- THE HOST'S SUM over the two trailing axes, at `j`: the initial array's entry plus the double sum of row `j`. -/
theorem hostReduceAdd_apply {u : Shape} (h : Shape.ReducesTo ⟨3, ![n, a, b]⟩ [1, 2] ⟨1, ![n]⟩)
    (x : FVec Ideal ⟨3, ![n, a, b]⟩ .f32) (init : u.Idx → Ideal .f32) (hu : 0 < u.numel) (j : Fin n) :
    Host.reduceAdd x init h hu (ix1 j) = init (Shape.Idx.first hu) + ∑ k : Fin a, ∑ l : Fin b, x (ix3 j k l) := by
  rw [ValueIdx.hostReduceAdd_apply]
  unfold Ideal.hostReduceAdd
  rw [sum_filter_drop h x j]

end Idealize.ShloMosaic.HostSum2

end
-- ==== Proof.RefLoss.lean ====
/-
  THE REFERENCE'S RESULT, ROW BY ROW.

  The reference takes the boxes' four coordinates and the predictions' three entries as [B, 4] and [B, 10] columns
  (a slice along the last axis, then the unit axis dropped), builds the predicted boxes from the first four triples,
  lays two columns against each other as [B, 4, 1] and [B, 1, 4] arrays broadcast to [B, 4, 4], so that entry
  `[b, k, l]` pairs box `k` with box `l` of row `b`, takes the overlaps there, squares the diagonal through a
  [4, 4] identity mask (`iota == iota`), and sums each [B, 4, 4] array over its two trailing axes. Read at `[b, 0]`
  that is the loss of row `b` (OverlapLoss.lean) as written there: no law of arithmetic is needed, only what each
  layout operation reads at an index.
-/
import proofs.«102184_j21337397527223_1_alg».proof.Proof.Gen.ReferenceIdeal.Read
import proofs.«102184_j21337397527223_1_alg».proof.Proof.OverlapLoss
import proofs.«102184_j21337397527223_1_alg».proof.Proof.LibHostSum2
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.RefLoss

open Cert.ReferenceIdeal Cert.ReferenceIdeal.Gen Cert.ReferenceIdeal.Read Cert.OverlapLoss
open Idealize.ShloMosaic Idealize.ShloMosaic.ValueIdx

variable {α : Type}

/-! ## The layout operations, read at an index given by its coordinates -/

/-- A slice of width one along the last axis fits: its offset is one of that axis's coordinates. -/
theorem lastSlice_lt {n a e c : Nat} (h : Shape.Slices ⟨3, ![n, a, e]⟩ ![0, 0, c] ⟨3, ![n, a, 1]⟩) : c < e := by
  have h2 := h.2 2
  exact h2

/-- ENTRY `c` ALONG THE LAST AXIS, as an [n, a, 1] slice, at `[j, k, 0]`: the array at `[j, k, c]`. -/
theorem lastSlice_apply {n a e c : Nat} (x : (⟨3, ![n, a, e]⟩ : Shape).Idx → α)
    (h : Shape.Slices ⟨3, ![n, a, e]⟩ ![0, 0, c] ⟨3, ![n, a, 1]⟩) (j : Fin n) (k : Fin a) (z : Fin 1) :
    extractStridedSlice ⟨3, ![n, a, 1]⟩ ![0, 0, c] x h (ix3 j k z) = x (ix3 j k ⟨c, lastSlice_lt h⟩) :=
  extractStridedSlice_apply ![0, 0, c] x h (ix3 j k z) (ix3 j k ⟨c, lastSlice_lt h⟩) (fun d => match d with
    | ⟨0, _⟩ => by show j.val = 0 + j.val; omega
    | ⟨1, _⟩ => by show k.val = 0 + k.val; omega
    | ⟨2, _⟩ => by show c = c + z.val; omega)

/-- Dropping a trailing unit axis: `[j, k]` of the result is `[j, k, 0]` of the operand. -/
theorem dropUnit_apply {n a : Nat} (y : (⟨3, ![n, a, 1]⟩ : Shape).Idx → α)
    (h : Shape.ShapeCasts ⟨3, ![n, a, 1]⟩ ⟨2, ![n, a]⟩) (j : Fin n) (k : Fin a) :
    shapeCast ⟨2, ![n, a]⟩ y h (ix2 j k) = y (ix3 j k 0) :=
  shapeCast_apply y h (ix2 j k) (ix3 j k 0) (by
    rw [Shape.rowMajor_val_three, Shape.rowMajor_val_two]
    show (j.val * a + k.val) * 1 + 0 = j.val * a + k.val
    rw [Nat.mul_one, Nat.add_zero])

/-- The leading columns of an [n, a] array fit inside it. -/
theorem leadingCols_le {n a a' : Nat} (h : Shape.Slices ⟨2, ![n, a]⟩ ![0, 0] ⟨2, ![n, a']⟩) : a' ≤ a := by
  have h1 := h.2 1
  have h1' : 0 + a' ≤ a := h1
  omega

/-- THE LEADING COLUMNS of an [n, a] array, at `[j, k]`: the array there. -/
theorem leadingCols_apply {n a a' : Nat} (y : (⟨2, ![n, a]⟩ : Shape).Idx → α)
    (h : Shape.Slices ⟨2, ![n, a]⟩ ![0, 0] ⟨2, ![n, a']⟩) (j : Fin n) (k : Fin a') :
    extractStridedSlice ⟨2, ![n, a']⟩ ![0, 0] y h (ix2 j k) = y (ix2 j (Fin.castLE (leadingCols_le h) k)) :=
  extractStridedSlice_apply ![0, 0] y h (ix2 j k) (ix2 j (Fin.castLE (leadingCols_le h) k)) (fun d => match d with
    | ⟨0, _⟩ => by show j.val = 0 + j.val; omega
    | ⟨1, _⟩ => by show k.val = 0 + k.val; omega)

/-- A [B, 4] column as a [B, 4, 1] array: `[b, k, 0]` is `[b, k]`. -/
theorem asRows_apply (dims : Fin S2097152x4.rank → Fin S2097152x4x1.rank) (y : S2097152x4.Idx → α)
    (h : S2097152x4.BroadcastsInDim S2097152x4x1 dims) (hd : dims = ![0, 1]) (b : Fin 2097152) (k : Fin 4) (z : Fin 1) :
    broadcastInDim S2097152x4x1 dims h y (ix3 b k z) = y (ix2 b k) := by
  subst hd
  exact broadcastInDim_apply _ h y (ix3 b k z) (ix2 b k) (fun d => match d with
    | ⟨0, _⟩ => by show b.val = if (2097152 : Nat) = 1 then 0 else b.val; rw [if_neg (by decide)]
    | ⟨1, _⟩ => by show k.val = if (4 : Nat) = 1 then 0 else k.val; rw [if_neg (by decide)])

/-- … broadcast along the last axis: `[b, k, l]` is `[b, k, 0]`. -/
theorem alongLast_apply (dims : Fin S2097152x4x1.rank → Fin S2097152x4x4.rank) (y : S2097152x4x1.Idx → α)
    (h : S2097152x4x1.BroadcastsInDim S2097152x4x4 dims) (hd : dims = ![0, 1, 2]) (b : Fin 2097152) (k l : Fin 4) :
    broadcastInDim S2097152x4x4 dims h y (ix3 b k l) = y (ix3 b k 0) := by
  subst hd
  exact broadcastInDim_apply _ h y (ix3 b k l) (ix3 b k 0) (fun d => match d with
    | ⟨0, _⟩ => by show b.val = if (2097152 : Nat) = 1 then 0 else b.val; rw [if_neg (by decide)]
    | ⟨1, _⟩ => by show k.val = if (4 : Nat) = 1 then 0 else k.val; rw [if_neg (by decide)]
    | ⟨2, _⟩ => by show 0 = if (1 : Nat) = 1 then 0 else l.val; rw [if_pos rfl])

/-- A [B, 4] column as a [B, 1, 4] array: `[b, 0, l]` is `[b, l]`. -/
theorem asCols_apply (dims : Fin S2097152x4.rank → Fin S2097152x1x4.rank) (y : S2097152x4.Idx → α)
    (h : S2097152x4.BroadcastsInDim S2097152x1x4 dims) (hd : dims = ![0, 2]) (b : Fin 2097152) (z : Fin 1) (l : Fin 4) :
    broadcastInDim S2097152x1x4 dims h y (ix3 b z l) = y (ix2 b l) := by
  subst hd
  exact broadcastInDim_apply _ h y (ix3 b z l) (ix2 b l) (fun d => match d with
    | ⟨0, _⟩ => by show b.val = if (2097152 : Nat) = 1 then 0 else b.val; rw [if_neg (by decide)]
    | ⟨1, _⟩ => by show l.val = if (4 : Nat) = 1 then 0 else l.val; rw [if_neg (by decide)])

/-- … broadcast along the middle axis: `[b, k, l]` is `[b, 0, l]`. -/
theorem alongMiddle_apply (dims : Fin S2097152x1x4.rank → Fin S2097152x4x4.rank) (y : S2097152x1x4.Idx → α)
    (h : S2097152x1x4.BroadcastsInDim S2097152x4x4 dims) (hd : dims = ![0, 1, 2]) (b : Fin 2097152) (k l : Fin 4) :
    broadcastInDim S2097152x4x4 dims h y (ix3 b k l) = y (ix3 b 0 l) := by
  subst hd
  exact broadcastInDim_apply _ h y (ix3 b k l) (ix3 b 0 l) (fun d => match d with
    | ⟨0, _⟩ => by show b.val = if (2097152 : Nat) = 1 then 0 else b.val; rw [if_neg (by decide)]
    | ⟨1, _⟩ => by show 0 = if (1 : Nat) = 1 then 0 else k.val; rw [if_pos rfl]
    | ⟨2, _⟩ => by show l.val = if (4 : Nat) = 1 then 0 else l.val; rw [if_neg (by decide)])

/-- A [4, 4] table repeated over the rows: `[b, k, l]` is `[k, l]`. -/
theorem overRows_apply (dims : Fin S4x4.rank → Fin S2097152x4x4.rank) (y : S4x4.Idx → α)
    (h : S4x4.BroadcastsInDim S2097152x4x4 dims) (hd : dims = ![1, 2]) (b : Fin 2097152) (k l : Fin 4) :
    broadcastInDim S2097152x4x4 dims h y (ix3 b k l) = y (ix2 k l) := by
  subst hd
  exact broadcastInDim_apply _ h y (ix3 b k l) (ix2 k l) (fun d => match d with
    | ⟨0, _⟩ => by show k.val = if (4 : Nat) = 1 then 0 else k.val; rw [if_neg (by decide)]
    | ⟨1, _⟩ => by show l.val = if (4 : Nat) = 1 then 0 else l.val; rw [if_neg (by decide)])

/-- A [B] vector as a [B, 1] column: `[b, 0]` is `[b]`. -/
theorem asColumn_apply (dims : Fin S2097152.rank → Fin S2097152x1.rank) (y : S2097152.Idx → α)
    (h : S2097152.BroadcastsInDim S2097152x1 dims) (hd : dims = ![0]) (b : Fin 2097152) (z : Fin 1) :
    broadcastInDim S2097152x1 dims h y (ix2 b z) = y (ix1 b) := by
  subst hd
  exact broadcastInDim_apply _ h y (ix2 b z) (ix1 b) (fun d => match d with
    | ⟨0, _⟩ => by show b.val = if (2097152 : Nat) = 1 then 0 else b.val; rw [if_neg (by decide)])

/-- A scalar broadcast to any shape reads the scalar everywhere. -/
theorem scalar_apply {T : Shape} (dims : Fin S_.rank → Fin T.rank) (h : S_.BroadcastsInDim T dims)
    (x : S_.Idx → α) (j : T.Idx) : broadcastInDim T dims h x j = x ix0 := by
  unfold broadcastInDim; exact congrArg x (funext fun a => a.elim0)

/-- A select on a decided condition is the `if`. -/
theorem select_ite (c : Prop) [Decidable c] (A B : α) : Scalar.select (if c then 1#1 else 0#1) A B = if c then A else B := by
  by_cases hc : c
  · rw [if_pos hc, if_pos hc]; exact select_one A B
  · rw [if_neg hc, if_neg hc]; exact select_zero A B

/-! ## Two columns laid against each other

The pattern the reference uses six times: two pairs of [B, 4] columns, one pair laid along the rows and one along the
columns of a [B, 4, 4] array, and the overlap of the two intervals taken entry by entry. -/

/-- Entry `[b, k, l]` of the pairwise overlap is the overlap of `[amin, amax]` at `k` with `[bmin, bmax]` at `l`. -/
theorem pair_overlap (amin amax bmin bmax : FVec Ideal S2097152x4 .f32) (b : Fin 2097152) (k l : Fin 4) :
    maximumf (broadcastInDim S2097152x4x4 ![] bcast_S_S2097152x4x4 (constant (F := Ideal) S_ .f32 0x00000000#32))
      (subf
        (minimumf
          (broadcastInDim S2097152x4x4 ![0, 1, 2] bcast_S2097152x4x1_S2097152x4x4_0_1_2
            (broadcastInDim S2097152x4x1 ![0, 1] bcast_S2097152x4_S2097152x4x1_0_1 amax))
          (broadcastInDim S2097152x4x4 ![0, 1, 2] bcast_S2097152x1x4_S2097152x4x4_0_1_2
            (broadcastInDim S2097152x1x4 ![0, 2] bcast_S2097152x4_S2097152x1x4_0_2 bmax)))
        (maximumf
          (broadcastInDim S2097152x4x4 ![0, 1, 2] bcast_S2097152x4x1_S2097152x4x4_0_1_2
            (broadcastInDim S2097152x4x1 ![0, 1] bcast_S2097152x4_S2097152x4x1_0_1 amin))
          (broadcastInDim S2097152x4x4 ![0, 1, 2] bcast_S2097152x1x4_S2097152x4x4_0_1_2
            (broadcastInDim S2097152x1x4 ![0, 2] bcast_S2097152x4_S2097152x1x4_0_2 bmin)))) (ix3 b k l)
      = overlap (amin (ix2 b k)) (amax (ix2 b k)) (bmin (ix2 b l)) (bmax (ix2 b l)) := by
  simp only [maximumf_apply, subf_apply, minimumf_apply, alongLast_apply _ _ _ rfl, asRows_apply _ _ _ rfl,
    alongMiddle_apply _ _ _ rfl, asCols_apply _ _ _ rfl, scalar_apply, constant_apply, Ideal.ofBits_zero_f32, overlap]

/-! ## The columns the reference takes -/

section Row

variable (x0 : FVec Ideal S2097152x4x4 .f32) (x1 : FVec Ideal S2097152x10x3 .f32) (b : Fin 2097152)

/-- The boxes' four coordinates. -/
theorem box_xmin (k : Fin 4) : val_main_v1 (F := Ideal) x0 (ix2 b k) = x0 (ix3 b k 0) := by
  simp only [val_main_v1, val_main_v0, dropUnit_apply, lastSlice_apply] <;> rfl
theorem box_ymin (k : Fin 4) : val_main_v3 (F := Ideal) x0 (ix2 b k) = x0 (ix3 b k 1) := by
  simp only [val_main_v3, val_main_v2, dropUnit_apply, lastSlice_apply] <;> rfl
theorem box_xmax (k : Fin 4) : val_main_v5 (F := Ideal) x0 (ix2 b k) = x0 (ix3 b k 2) := by
  simp only [val_main_v5, val_main_v4, dropUnit_apply, lastSlice_apply] <;> rfl
theorem box_ymax (k : Fin 4) : val_main_v7 (F := Ideal) x0 (ix2 b k) = x0 (ix3 b k 3) := by
  simp only [val_main_v7, val_main_v6, dropUnit_apply, lastSlice_apply] <;> rfl

/-- The predictions' three entries, for all ten triples. -/
theorem pred_u (k : Fin 10) : val_main_v9 (F := Ideal) x1 (ix2 b k) = x1 (ix3 b k 0) := by
  simp only [val_main_v9, val_main_v8, dropUnit_apply, lastSlice_apply] <;> rfl
theorem pred_y (k : Fin 10) : val_main_v11 (F := Ideal) x1 (ix2 b k) = x1 (ix3 b k 1) := by
  simp only [val_main_v11, val_main_v10, dropUnit_apply, lastSlice_apply] <;> rfl
theorem pred_v (k : Fin 10) : val_main_v13 (F := Ideal) x1 (ix2 b k) = x1 (ix3 b k 2) := by
  simp only [val_main_v13, val_main_v12, dropUnit_apply, lastSlice_apply] <;> rfl

/-- The first four predicted boxes: `xmin = min u v`, `xmax = max u v`, `ymin = y`, `ymax = y + (xmax - xmin)`. -/
theorem pbox_xmin (k : Fin 4) :
    val_main_v18 (F := Ideal) x1 (ix2 b k) = min (x1 (ix3 b (firstFour k) 0)) (x1 (ix3 b (firstFour k) 2)) := by
  simp only [val_main_v18, val_main_v14, leadingCols_apply, minimumf_apply, pred_u, pred_v] <;> rfl
theorem pbox_xmax (k : Fin 4) :
    val_main_v19 (F := Ideal) x1 (ix2 b k) = max (x1 (ix3 b (firstFour k) 0)) (x1 (ix3 b (firstFour k) 2)) := by
  simp only [val_main_v19, val_main_v15, leadingCols_apply, maximumf_apply, pred_u, pred_v] <;> rfl
theorem pbox_ymin (k : Fin 4) : val_main_v20 (F := Ideal) x1 (ix2 b k) = x1 (ix3 b (firstFour k) 1) := by
  simp only [val_main_v20, leadingCols_apply, pred_y] <;> rfl
theorem pbox_ymax (k : Fin 4) :
    val_main_v21 (F := Ideal) x1 (ix2 b k)
      = x1 (ix3 b (firstFour k) 1)
        + (max (x1 (ix3 b (firstFour k) 0)) (x1 (ix3 b (firstFour k) 2)) - min (x1 (ix3 b (firstFour k) 0)) (x1 (ix3 b (firstFour k) 2))) := by
  simp only [val_main_v21, val_main_v17, val_main_v16, val_main_v15, val_main_v14, leadingCols_apply, addf_apply, subf_apply,
    maximumf_apply, minimumf_apply, pred_u, pred_y, pred_v] <;> rfl

/-! ## The six overlap arrays -/

/-- A box against a predicted box, on the x axis and on the y axis. -/
theorem cross_x (k l : Fin 4) :
    val_main_v34 (F := Ideal) x0 x1 (ix3 b k l)
      = overlap (val_main_v1 (F := Ideal) x0 (ix2 b k)) (val_main_v5 (F := Ideal) x0 (ix2 b k)) (val_main_v18 (F := Ideal) x1 (ix2 b l)) (val_main_v19 (F := Ideal) x1 (ix2 b l)) :=
  pair_overlap (val_main_v1 (F := Ideal) x0) (val_main_v5 (F := Ideal) x0) (val_main_v18 (F := Ideal) x1) (val_main_v19 (F := Ideal) x1) b k l
theorem cross_y (k l : Fin 4) :
    val_main_v47 (F := Ideal) x0 x1 (ix3 b k l)
      = overlap (val_main_v3 (F := Ideal) x0 (ix2 b k)) (val_main_v7 (F := Ideal) x0 (ix2 b k)) (val_main_v20 (F := Ideal) x1 (ix2 b l)) (val_main_v21 (F := Ideal) x1 (ix2 b l)) :=
  pair_overlap (val_main_v3 (F := Ideal) x0) (val_main_v7 (F := Ideal) x0) (val_main_v20 (F := Ideal) x1) (val_main_v21 (F := Ideal) x1) b k l
/-- A box against a box. -/
theorem box_x (k l : Fin 4) :
    val_main_v62 (F := Ideal) x0 (ix3 b k l)
      = overlap (val_main_v1 (F := Ideal) x0 (ix2 b k)) (val_main_v5 (F := Ideal) x0 (ix2 b k)) (val_main_v1 (F := Ideal) x0 (ix2 b l)) (val_main_v5 (F := Ideal) x0 (ix2 b l)) :=
  pair_overlap (val_main_v1 (F := Ideal) x0) (val_main_v5 (F := Ideal) x0) (val_main_v1 (F := Ideal) x0) (val_main_v5 (F := Ideal) x0) b k l
theorem box_y (k l : Fin 4) :
    val_main_v75 (F := Ideal) x0 (ix3 b k l)
      = overlap (val_main_v3 (F := Ideal) x0 (ix2 b k)) (val_main_v7 (F := Ideal) x0 (ix2 b k)) (val_main_v3 (F := Ideal) x0 (ix2 b l)) (val_main_v7 (F := Ideal) x0 (ix2 b l)) :=
  pair_overlap (val_main_v3 (F := Ideal) x0) (val_main_v7 (F := Ideal) x0) (val_main_v3 (F := Ideal) x0) (val_main_v7 (F := Ideal) x0) b k l
/-- A predicted box against a predicted box. -/
theorem pbox_x (k l : Fin 4) :
    val_main_v97 (F := Ideal) x1 (ix3 b k l)
      = overlap (val_main_v18 (F := Ideal) x1 (ix2 b k)) (val_main_v19 (F := Ideal) x1 (ix2 b k)) (val_main_v18 (F := Ideal) x1 (ix2 b l)) (val_main_v19 (F := Ideal) x1 (ix2 b l)) :=
  pair_overlap (val_main_v18 (F := Ideal) x1) (val_main_v19 (F := Ideal) x1) (val_main_v18 (F := Ideal) x1) (val_main_v19 (F := Ideal) x1) b k l
theorem pbox_y (k l : Fin 4) :
    val_main_v110 (F := Ideal) x1 (ix3 b k l)
      = overlap (val_main_v20 (F := Ideal) x1 (ix2 b k)) (val_main_v21 (F := Ideal) x1 (ix2 b k)) (val_main_v20 (F := Ideal) x1 (ix2 b l)) (val_main_v21 (F := Ideal) x1 (ix2 b l)) :=
  pair_overlap (val_main_v20 (F := Ideal) x1) (val_main_v21 (F := Ideal) x1) (val_main_v20 (F := Ideal) x1) (val_main_v21 (F := Ideal) x1) b k l

/-! ## The identity masks -/

/-- `iota(rows) + 0 == iota(columns)` over [4, 4] is one exactly on the diagonal. -/
theorem eye0 (k l : Fin 4) : val_main_v81 (F := Ideal) (ix2 k l) = if k = l then 1#1 else 0#1 := by
  fin_cases k <;> fin_cases l <;> rfl
theorem eye1 (k l : Fin 4) : val_main_v116 (F := Ideal) (ix2 k l) = if k = l then 1#1 else 0#1 := by
  fin_cases k <;> fin_cases l <;> rfl

/-! ## The terms of the three sums -/

abbrev bxmin : Fin 4 → EReal := fun k => x0 (ix3 b k 0)
abbrev bymin : Fin 4 → EReal := fun k => x0 (ix3 b k 1)
abbrev bxmax : Fin 4 → EReal := fun k => x0 (ix3 b k 2)
abbrev bymax : Fin 4 → EReal := fun k => x0 (ix3 b k 3)
abbrev pxmin : Fin 4 → EReal := fun k => min (x1 (ix3 b (firstFour k) 0)) (x1 (ix3 b (firstFour k) 2))
abbrev pxmax : Fin 4 → EReal := fun k => max (x1 (ix3 b (firstFour k) 0)) (x1 (ix3 b (firstFour k) 2))
abbrev pymin : Fin 4 → EReal := fun k => x1 (ix3 b (firstFour k) 1)
abbrev pymax : Fin 4 → EReal := fun k =>
  x1 (ix3 b (firstFour k) 1) + (max (x1 (ix3 b (firstFour k) 0)) (x1 (ix3 b (firstFour k) 2)) - min (x1 (ix3 b (firstFour k) 0)) (x1 (ix3 b (firstFour k) 2)))

theorem cross_term (k l : Fin 4) :
    val_main_v48 (F := Ideal) x0 x1 (ix3 b k l)
      = pairArea (bxmin x0 b) (bxmax x0 b) (bymin x0 b) (bymax x0 b) (pxmin x1 b) (pxmax x1 b) (pymin x1 b) (pymax x1 b) k l := by
  rw [val_main_v48_apply, Ideal.mulf_def, cross_x, cross_y, box_xmin, box_xmax, box_ymin, box_ymax, pbox_xmin, pbox_xmax, pbox_ymin, pbox_ymax]
  rfl

theorem box_pair (k l : Fin 4) :
    val_main_v76 (F := Ideal) x0 (ix3 b k l)
      = pairArea (bxmin x0 b) (bxmax x0 b) (bymin x0 b) (bymax x0 b) (bxmin x0 b) (bxmax x0 b) (bymin x0 b) (bymax x0 b) k l := by
  rw [val_main_v76_apply, Ideal.mulf_def, box_x, box_y, box_xmin, box_xmax, box_ymin, box_ymax, box_xmin, box_xmax, box_ymin, box_ymax]
  rfl

theorem pbox_pair (k l : Fin 4) :
    val_main_v111 (F := Ideal) x1 (ix3 b k l)
      = pairArea (pxmin x1 b) (pxmax x1 b) (pymin x1 b) (pymax x1 b) (pxmin x1 b) (pxmax x1 b) (pymin x1 b) (pymax x1 b) k l := by
  rw [val_main_v111_apply, Ideal.mulf_def, pbox_x, pbox_y, pbox_xmin, pbox_xmax, pbox_ymin, pbox_ymax, pbox_xmin, pbox_xmax, pbox_ymin, pbox_ymax]
  rfl

theorem box_term (k l : Fin 4) :
    val_main_v83 (F := Ideal) x0 (ix3 b k l)
      = if k = l then val_main_v76 (F := Ideal) x0 (ix3 b k l) * val_main_v76 (F := Ideal) x0 (ix3 b k l)
        else val_main_v76 (F := Ideal) x0 (ix3 b k l) := by
  rw [val_main_v83_apply, val_main_v82_apply, Ideal.mulf_def]
  unfold val_main_call0_v0
  rw [overRows_apply _ _ _ rfl, eye0, select_ite]

theorem pbox_term (k l : Fin 4) :
    val_main_v118 (F := Ideal) x1 (ix3 b k l)
      = if k = l then val_main_v111 (F := Ideal) x1 (ix3 b k l) * val_main_v111 (F := Ideal) x1 (ix3 b k l)
        else val_main_v111 (F := Ideal) x1 (ix3 b k l) := by
  rw [val_main_v118_apply, val_main_v117_apply, Ideal.mulf_def]
  unfold val_main_call1_v0
  rw [overRows_apply _ _ _ rfl, eye1, select_ite]

/-! ## The three sums -/

/-- The zero the sums start from. -/
theorem zero_init (init : S_.Idx → EReal) (h : init = constant (F := Ideal) S_ .f32 0x00000000#32) (hu : 0 < S_.numel) :
    init (Shape.Idx.first hu) = 0 := by
  subst h; rw [constant_apply, Ideal.ofBits_zero_f32]

theorem cross_sum :
    val_main_v49 (F := Ideal) x0 x1 (ix1 b)
      = crossArea (bxmin x0 b) (bxmax x0 b) (bymin x0 b) (bymax x0 b) (pxmin x1 b) (pxmax x1 b) (pymin x1 b) (pymax x1 b) := by
  unfold val_main_v49 crossArea
  rw [HostSum2.hostReduceAdd_apply, zero_init (val_main_cst_1 (F := Ideal)) rfl]
  simp only [cross_term]

theorem box_sum :
    val_main_v84 (F := Ideal) x0 (ix1 b) = selfArea (bxmin x0 b) (bxmax x0 b) (bymin x0 b) (bymax x0 b) := by
  unfold val_main_v84 selfArea
  rw [HostSum2.hostReduceAdd_apply, zero_init (val_main_cst_4 (F := Ideal)) rfl]
  simp only [box_term, box_pair]

theorem pbox_sum :
    val_main_v119 (F := Ideal) x1 (ix1 b) = selfArea (pxmin x1 b) (pxmax x1 b) (pymin x1 b) (pymax x1 b) := by
  unfold val_main_v119 selfArea
  rw [HostSum2.hostReduceAdd_apply, zero_init (val_main_cst_8 (F := Ideal)) rfl]
  simp only [pbox_term, pbox_pair]

end Row

/-! ## The reference is the loss array -/

/-- THE REFERENCE'S RESULT is the loss of each row of its two arguments. -/
theorem ref_eq (x0 : FVec Ideal S2097152x4x4 .f32) (x1 : FVec Ideal S2097152x10x3 .f32) :
    val_main_v123 (F := Ideal) x0 x1 = lossArray x0 x1 := by
  funext i
  obtain ⟨b, z, rfl⟩ : ∃ (b : Fin 2097152) (z : Fin 1), i = ix2 b z := ⟨i 0, i 1, eq_ix2 i⟩
  unfold val_main_v123
  rw [asColumn_apply _ _ _ rfl, val_main_v122_apply, val_main_v121_apply, val_main_v120_apply, Ideal.subf_def, Ideal.mulf_def,
    box_sum, pbox_sum, cross_sum]
  unfold lossArray rowLoss
  rfl

end Cert.RefLoss

end
-- ==== Proof.lean ====
/-
  The kernel and its reference compute, for every row of four boxes and ten predicted triples, the loss
  `(β₁ - β₂)² - I` of OverlapLoss.lean: `I` the summed overlap areas of the boxes with the first four predicted boxes,
  `β` a family's summed overlap areas with itself, a box with itself squared.

  The kernel flattens the two arguments, walks 512 blocks of 4096 rows and computes each row from sixteen and twelve
  columns of its blocks with the forty-eight terms added one by one (KernelRow.lean, KernelArray.lean); the reference
  lays columns against each other in [B, 4, 4] arrays, squares the diagonal through an identity mask and sums over
  the two trailing axes (RefLoss.lean, LibHostSum2.lean). Both results are the same function of the arguments,
  `lossArray`; the one law used is that a sum of extended reals does not depend on how it is grouped. The precondition
  (finite inputs) is not needed: every operation is the same on both sides.

  The frames of the two kernel programs are the generated ones; the reference's frame is its generated run with the
  result dropped; the idealization rewrote nothing, so `preserves` is trivial.
-/
import proofs.«102184_j21337397527223_1_alg».proof.Defs
import proofs.«102184_j21337397527223_1_alg».proof.Proof.Gen.Kernel
import proofs.«102184_j21337397527223_1_alg».proof.Proof.Gen.Kernel.Skeleton
import proofs.«102184_j21337397527223_1_alg».proof.Proof.Gen.Kernel.Launch
import proofs.«102184_j21337397527223_1_alg».proof.Proof.Gen.Kernel.Points
import proofs.«102184_j21337397527223_1_alg».proof.Proof.Gen.Kernel.Frame
import proofs.«102184_j21337397527223_1_alg».proof.Proof.Gen.KernelIdeal
import proofs.«102184_j21337397527223_1_alg».proof.Proof.Gen.KernelIdeal.Skeleton
import proofs.«102184_j21337397527223_1_alg».proof.Proof.Gen.KernelIdeal.Launch
import proofs.«102184_j21337397527223_1_alg».proof.Proof.Gen.KernelIdeal.Points
import proofs.«102184_j21337397527223_1_alg».proof.Proof.Gen.KernelIdeal.Frame
import proofs.«102184_j21337397527223_1_alg».proof.Proof.Gen.ReferenceIdeal
import proofs.«102184_j21337397527223_1_alg».proof.Proof.Gen.Pre_finite_inputs
import proofs.«102184_j21337397527223_1_alg».proof.Proof.Gen.KernelIdeal.Value
import proofs.«102184_j21337397527223_1_alg».proof.Proof.Gen.ReferenceIdeal.Run
import proofs.«102184_j21337397527223_1_alg».proof.Proof.Gen.ReferenceIdeal.Read
import proofs.«102184_j21337397527223_1_alg».proof.Proof.KernelArray
import proofs.«102184_j21337397527223_1_alg».proof.Proof.RefLoss
import Idealize.ShloMosaic.Adequacy
import Idealize.ShloMosaic.Init

noncomputable section

namespace Cert.Proof

open Idealize.ShloMosaic Idealize.ShloMosaic.TcCoe Idealize.SL.Sem

/-- Both idealized programs end with the loss array of the arguments: the kernel's run (KernelArray.lean) and the
    reference's generated run, read row by row (RefLoss.lean), from memories that agree on the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.OverlapLoss.lossArray
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v123_eq, Cert.RefLoss.ref_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
